-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384 : Shape := ⟨1, ![16384]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  main_v17

def fn {F : FTy → Type} [FloatOps F] (main_arg0 : FVec F S16384x1 .f32) (main_arg1 : FVec F S16384 .f32) (main_arg2 : FVec F S16384x1 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_cst_4 : FVec F S_ .f32 := constant S_ .f32 0x00000000#32
  let main_v14 : FVec F S16384 .f32 := broadcastInDim S16384 ![] bcast_S_S16384 main_cst_4
  let main_v15 : IVec S16384 1 := cmpf .ogt main_arg1 main_v14
  let main_c_5 : IVec S_ 1 := constantI S_ 1 1#1
  fn_part1 (F := F) main_v13 main_v15 main_c_5
-- ==== Kernel.lean ====
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S2048x1 : Shape := ⟨2, ![2048, 1]⟩
abbrev S1x1024 : Shape := ⟨2, ![1, 1024]⟩
abbrev S2048x1024 : Shape := ⟨2, ![2048, 1024]⟩
abbrev S1024 : Shape := ⟨1, ![1024]⟩

abbrev nBuf : Space → Nat
  | .hbm => 51
  | .vmem => 12
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S1x16384, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .i1⟩
  | .hbm, ⟨35, _⟩ => ⟨S_, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .i1⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1, .f32⟩
  | .local _ .vmem, ⟨0, _⟩ => ⟨S2048x1, .f32⟩
  | .local _ .vmem, ⟨1, _⟩ => ⟨S2048x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384 : S_.BroadcastsInDim S16384 (![] : Fin 0 → Fin S16384.rank)
  shapeCasts_S16384x1_S16384 : S16384x1.ShapeCasts S16384
  bcast_S16384_S1x16384_1 : S16384.BroadcastsInDim S1x16384 (![1] : Fin 1 → Fin S1x16384.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1_S2048x1_0_0 : ∀ a, (![0, 0] : Fin 2 → Nat) a + S2048x1.size a ≤ S2048x1.size a
  h_S2048x1 : 0 < S2048x1.numel
  broadcasts_S2048x1_S2048x1024 : S2048x1.Broadcasts S2048x1024
  broadcasts_S1x1024_S2048x1024 : S1x1024.Broadcasts S2048x1024
  reduces_S2048x1024_S1024 : S2048x1024.Reduces [0] S1024
  shapeCasts_S1024_S1x1024 : S1024.ShapeCasts S1x1024
  shapeCasts_S1x16384_S16384 : S1x16384.ShapeCasts S16384
  bcast_S16384_S16384x1_0 : S16384.BroadcastsInDim S16384x1 (![0] : Fin 1 → Fin S16384x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .f32 = 32 ∨ (Rect.block (s := S16384x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x16384.size a
  hwx0_4 : ∀ i : grid0.Coords, EltTy.bits .f32 = 32 ∨ (Rect.block (s := S1x16384) S1x1024.size (cc0_transform_4 i) (hinb0_4 i)).WholeWords (EltTy.packing .f32)

variable [Facts₀]

abbrev win0_0 : Pipeline.Window sig grid0 :=
  Pipeline.Window.ofSpec (Memref.whole main_arg2) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S16384x16384 : Shape := ⟨2, ![16384, 16384]⟩

abbrev nBuf : Space → Nat
  | .hbm => 67
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S1x16384, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S16384, .f32⟩
  | .hbm, ⟨28, _⟩ => ⟨S16384x1, .f32⟩
  | .hbm, ⟨29, _⟩ => ⟨S16384, .f32⟩
  | .hbm, ⟨30, _⟩ => ⟨S1x16384, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S16384x16384, .f32⟩
  | .hbm, ⟨35, _⟩ => ⟨S_, .f32⟩
  | .hbm, ⟨36, _⟩ => ⟨S16384x16384, .f32⟩
  | .hbm, ⟨37, _⟩ => ⟨S16384x16384, .f32⟩
  | .hbm, ⟨38, _⟩ => ⟨S1x16384, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .i1⟩
  | .hbm, ⟨51, _⟩ => ⟨S_, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .i1⟩
  | .hbm, ⟨58, _⟩ => ⟨S16384, .f32⟩
  | .hbm, ⟨59, _⟩ => ⟨S_, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  shapeCasts_S16384x1_S16384 : S16384x1.ShapeCasts S16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S16384_S16384x1_0 : S16384.BroadcastsInDim S16384x1 (![0] : Fin 1 → Fin S16384x1.rank)
  bcast_S_S16384x16384 : S_.BroadcastsInDim S16384x16384 (![] : Fin 0 → Fin S16384x16384.rank)
  reducesTo_S16384x16384_S16384_d0 : S16384x16384.ReducesTo [0] S16384
  h_S_ : 0 < S_.numel

variable [Facts₀]

class Facts : Prop extends Facts₀ where

variable [Facts]
-- ==== Proof.Spec.lean ====
/-
  The mathematics the two programs share, with no program imported.

  A query `b` has a position `x b`, a time `t b` and a variance `sig2 (t b)`; a training point `n` has a
  position `tr n`. Both programs weigh the training points by a Gaussian of the squared distance,
  `exp (-(tr n - x b)² / (2 σ²))`, and return `(∑ w·tr / ∑ w - x) / σ²` with the guards of `tail`.
  The kernel multiplies `-(1/2)·d²` by the reciprocal `1 / σ²` (`wK`), the reference divides it by `σ²`
  (`wR`); off `σ² = 0` the two are one extended real (`wK_eq_wR`). The kernel adds the weights tile by tile,
  2048 training points at a time, into a running sum that starts at zero (`tiles`); the reference adds all
  16384 at once: over the extended reals, where addition is associative and commutative, the same sum
  (`tiles_eq_sum`).
-/
import Idealize.ShloMosaic.PureOps.Ideal
import Idealize.ShloMosaic.PureOps.Ideal.Laws
import Idealize.ShloMosaic.Lib.ValueIdx

noncomputable section

namespace Cert.NW

open Idealize.ShloMosaic

/-- The literal `-1/2` both programs carry. -/
abbrev nh : EReal := Ideal.ofBits .f32 0xBF000000#32

/-- `log 25`, the logarithm of the largest standard deviation, as both programs compute it. -/
abbrev logS : EReal := Ideal.log (Ideal.ofBits .f32 0x41C80000#32)

/-- The quotient under the square root: `(exp (2·t·log 25) - 1) / (2·log 25)`. -/
def varArg (t : EReal) : EReal :=
  Ideal.div (Ideal.exp ((Ideal.ofBits .f32 0x40000000#32 * t) * logS) - Ideal.ofBits .f32 0x3F800000#32)
    (Ideal.ofBits .f32 0x40000000#32 * logS)

/-- The variance at time `t`: the square of the standard deviation `√((25^(2t) - 1) / (2 log 25))`. -/
def sig2 (t : EReal) : EReal := Ideal.sqrt (varArg t) * Ideal.sqrt (varArg t)

/-- The kernel's weight of a training point at `tr` for a query at `x` whose reciprocal variance is `inv`. -/
def wK (tr x inv : EReal) : EReal := Ideal.exp ((nh * ((tr - x) * (tr - x))) * inv)

/-- The reference's weight of a training point at `tr` for a query at `x` of variance `s`. -/
def wR (tr x s : EReal) : EReal := Ideal.exp (Ideal.div (nh * ((tr - x) * (tr - x))) s)

/-- Off a zero variance, multiplying by the reciprocal is dividing: `a · (1 · s⁻¹) = a · s⁻¹`. -/
theorem wK_eq_wR (tr x s : EReal) (hs : s ≠ 0) : wK tr x (Ideal.div 1 s) = wR tr x s := by
  unfold wK wR Ideal.div
  rw [if_neg hs, if_neg hs, one_mul]

/-- The kernel's running sum after tile `k` (tiles `0 … k`, 2048 training points each), from zero. -/
def tiles (f : ℕ → EReal) : ℕ → EReal
  | 0 => 0 + ∑ r : Fin 2048, f r.val
  | k + 1 => tiles f k + ∑ r : Fin 2048, f ((k + 1) * 2048 + r.val)

/-- The running sum after tile `k` is the sum of the first `(k + 1)·2048` terms. -/
theorem tiles_eq_range (f : ℕ → EReal) (k : ℕ) : tiles f k = ∑ n ∈ Finset.range ((k + 1) * 2048), f n := by
  induction k with
  | zero => rw [tiles, zero_add, Fin.sum_univ_eq_sum_range (fun n => f n) 2048]
  | succ k ih =>
    rw [tiles, ih, show (k + 1 + 1) * 2048 = (k + 1) * 2048 + 2048 by ring, Finset.sum_range_add,
      Fin.sum_univ_eq_sum_range (fun n => f ((k + 1) * 2048 + n)) 2048]

/-- After the eighth tile the running sum is the sum over all 16384 training points. -/
theorem tiles_eq_sum (f : ℕ → EReal) : tiles f 7 = ∑ n : Fin 16384, f n.val := by
  rw [tiles_eq_range, Fin.sum_univ_eq_sum_range (fun n => f n) 16384]

/-! ## Where a grid point's tiles sit in the arrays

Grid point `t` (of 128, the training tile moving fastest) works on training tile `t % 8` and query tile `t / 8`. -/

/-- Training point `r` of training tile `k % 8`. -/
def trIdx (k : ℕ) (r : Fin 2048) : Fin 16384 :=
  ⟨(k % 8) * 2048 + r.val, by have := Nat.mod_lt k (show 0 < 8 by norm_num); have := r.isLt; omega⟩

/-- Query `j` of query tile `k / 8`. -/
def qIdx (k : ℕ) (j : Fin 1024) : Fin 16384 :=
  ⟨(k / 8 % 16) * 1024 + j.val, by have := Nat.mod_lt (k / 8) (show 0 < 16 by norm_num); have := j.isLt; omega⟩

/-- A function of the training points as a function of all naturals (zero past the last point). -/
def ext (g : Fin 16384 → EReal) (n : ℕ) : EReal := if h : n < 16384 then g ⟨n, h⟩ else 0

theorem ext_val (g : Fin 16384 → EReal) (n : Fin 16384) : ext g n.val = g n := by
  unfold ext; rw [dif_pos n.isLt]

theorem ext_tr (g : Fin 16384 → EReal) (k : ℕ) (hk : k < 8) (r : Fin 2048) :
    ext g (k * 2048 + r.val) = g (trIdx k r) := by
  have hr := r.isLt
  unfold ext trIdx
  rw [dif_pos (by omega)]
  congr 1
  apply Fin.ext
  show k * 2048 + r.val = (k % 8) * 2048 + r.val
  rw [Nat.mod_eq_of_lt hk]

/-- The eight tiles' running sum of a function of the training points is its sum over all of them. -/
theorem tiles_ext (g : Fin 16384 → EReal) : tiles (ext g) 7 = ∑ n : Fin 16384, g n := by
  rw [tiles_eq_sum]; exact Finset.sum_congr rfl fun n _ => ext_val g n

/-! ## The host operations after the sums, shared word for word -/

abbrev Sc : Shape := ⟨0, ![]⟩
abbrev Sv : Shape := ⟨1, ![16384]⟩
abbrev Scol : Shape := ⟨2, ![16384, 1]⟩

theorem bc_c_v : Sc.BroadcastsInDim Sv (![] : Fin 0 → Fin Sv.rank) := by decide
theorem bc_v_col : Sv.BroadcastsInDim Scol (![0] : Fin 1 → Fin Scol.rank) := by decide

/-- From the two sums to the result: `(where (den = 0) 0 (num / where (den = 0) 1 den) - x) / σ²`. -/
def tail (num den : FVec Ideal Sv .f32) (x0 : FVec Ideal Scol .f32) (s2 : FVec Ideal Sv .f32) : FVec Ideal Scol .f32 :=
  Host.divf
    (subf
      (broadcastInDim Scol ![0] bc_v_col
        (select (cmpf .oeq den (broadcastInDim Sv ![] bc_c_v (constant Sc .f32 0x00000000#32)))
          (broadcastInDim Sv ![] bc_c_v (id (constant Sc .f32 0x00000000#32)))
          (Host.divf num
            (select (cmpf .oeq den (broadcastInDim Sv ![] bc_c_v (constant Sc .f32 0x00000000#32)))
              (broadcastInDim Sv ![] bc_c_v (id (constant Sc .f32 0x3F800000#32)))
              den))))
      x0)
    (broadcastInDim Scol ![0] bc_v_col s2)

end Cert.NW

end
-- ==== Proof.Pieces.lean ====
/-
  What each control case of the kernel body leaves behind, as values.

  The body keeps two running sums in scratch memory, the weighted positions and the weights. At a query tile's
  first training tile it resets both to zero and adds the tile's sums; at the others it adds the tile's sums
  to what the point before left; at the last training tile it also copies both sums to the output blocks.
-/
import proofs.«162017_j15556371546670_1_alg».proof.Proof.Gen.KernelIdeal.Frame
import Idealize.ShloMosaic.Lib.Pipeline.Value
import Idealize.ShloMosaic.Lib.Tactic

set_option maxRecDepth 16384

noncomputable section

namespace Cert.NW.Pieces

open Cert.KernelIdeal Cert.KernelIdeal.Gen Idealize.ShloMosaic Idealize.ShloMosaic.TcCoe Idealize.SL.Sem
open Idealize.ShloMosaic.Tactic

variable {F : FTy → Type} [FloatOps F]

/-- The zero offset of a whole block. -/
theorem hz : (![0, 0] : Fin 2 → Nat) = fun _ => 0 := funext fun a => by fin_cases a <;> rfl

/-! ## First training tile: the running sums restart from the zero block -/

theorem num_first (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S2048x1 .f32) (x1 x2 : Vec F S1x1024 .f32) :
    sout0_A_0 c i arg2 harg2 arg3 harg3 arg4 harg4 arg5 harg5 arg6 harg6 arg7 harg7 arg8 harg8 hc0 hc1 x0 x1 x2 = k0_pay5 x0 x1 x2 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 )]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

theorem den_first (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S2048x1 .f32) (x1 x2 : Vec F S1x1024 .f32) :
    sout0_A_1 c i arg2 harg2 arg3 harg3 arg4 harg4 arg5 harg5 arg6 harg6 arg7 harg7 arg8 harg8 hc0 hc1 x0 x1 x2 = k0_pay4 x0 x1 x2 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2 )]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

/-! ## A middle training tile: the tile's sums are added to what the point before left -/

theorem num_mid (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S2048x1 .f32) (x1 x2 xs0 xs1 : Vec F S1x1024 .f32) :
    sout0_B_0 c i arg2 harg2 arg3 harg3 arg4 harg4 arg5 harg5 arg6 harg6 arg7 harg7 arg8 harg8 hc0 hc1 x0 x1 x2 xs0 xs1 = k0_pay5 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 )]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

theorem den_mid (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S2048x1 .f32) (x1 x2 xs0 xs1 : Vec F S1x1024 .f32) :
    sout0_B_1 c i arg2 harg2 arg3 harg3 arg4 harg4 arg5 harg5 arg6 harg6 arg7 harg7 arg8 harg8 hc0 hc1 x0 x1 x2 xs0 xs1 = k0_pay4 x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 )]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

/-! ## Last training tile: the same update, and the finished sums go to the output blocks -/

theorem num_last (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S2048x1 .f32) (x1 x2 xs0 xs1 : Vec F S1x1024 .f32) :
    sout0_C_0 c i arg2 harg2 arg3 harg3 arg4 harg4 arg5 harg5 arg6 harg6 arg7 harg7 arg8 harg8 hc0 hc1 x0 x1 x2 xs0 xs1 = k0_pay5 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 )]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

theorem den_last (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S2048x1 .f32) (x1 x2 xs0 xs1 : Vec F S1x1024 .f32) :
    sout0_C_1 c i arg2 harg2 arg3 harg3 arg4 harg4 arg5 harg5 arg6 harg6 arg7 harg7 arg8 harg8 hc0 hc1 x0 x1 x2 xs0 xs1 = k0_pay4 x0 x1 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 )]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

theorem num_out (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S2048x1 .f32) (x1 x2 xs0 xs1 : Vec F S1x1024 .f32) :
    out0_C_3 c i arg2 harg2 arg3 harg3 arg4 harg4 arg5 harg5 arg6 harg6 arg7 harg7 arg8 harg8 hc0 hc1 x0 x1 x2 xs0 xs1 = k0_pay5 x0 x1 x2 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 )]
  unfold kernelRun0_C
  dsimp only
  sl_unfold_words
  rw [View.canon_unit_zero hz, View.readCov_unit_zero (S := S1x1024) _ hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

theorem den_out (c : Dev nD) (i : grid0.Coords) (arg2 : Memref sig .tc .vmem S2048x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S2048x1 .f32) (x1 x2 xs0 xs1 : Vec F S1x1024 .f32) :
    out0_C_4 c i arg2 harg2 arg3 harg3 arg4 harg4 arg5 harg5 arg6 harg6 arg7 harg7 arg8 harg8 hc0 hc1 x0 x1 x2 xs0 xs1 = k0_pay4 x0 x1 x2 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1 )]
  unfold kernelRun0_C
  dsimp only
  sl_unfold_words
  rw [View.canon_unit_zero hz, View.readCov_unit_zero (S := S1x1024) _ hz]
  simp only [View.readAt_eq_ld, harg2.read_unread, harg3.read_unread, harg4.read_unread, harg5.read_unread, harg6.read_unread, harg7.read_unread, harg8.read_unread, View.ld_unit_zero (S := S1x1024) hz, View.ld_unit_zero (S := S2048x1) hz]

end Cert.NW.Pieces

end
-- ==== Proof.PayIdx.lean ====
/-
  The kernel body's arithmetic read at an index.

  Per grid point the body loads a training tile `v3 : [2048, 1]`, a query tile `v4 : [1, 1024]` and a tile of reciprocal
  variances `v6 : [1, 1024]`, forms the weights `exp ((-1/2 · (v3[r,0] - v4[0,j])²) · v6[0,j])` over `[2048, 1024]`, and adds to the
  denominator's accumulator the sum of the weights over the training axis `r`, to the numerator's accumulator the sum
  of weight times position `v3[r,0]`. Read at `(0, j)` both stores are the accumulator plus a sum over `r : Fin 2048`
  of the shared weight `wK`; the two initial blocks are zero.
-/
import proofs.«162017_j15556371546670_1_alg».proof.Proof.Gen.KernelIdeal.Skeleton
import proofs.«162017_j15556371546670_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.NW.Pay

open Cert.KernelIdeal Cert.KernelIdeal.Gen Idealize.ShloMosaic Idealize.ShloMosaic.ValueIdx Cert.NW

/-- A column `[2048, 1]` broadcast to `[2048, 1024]` reads, at `(p, q)`, the column at `(p, 0)`. -/
theorem bcast_col (v : Vec Ideal S2048x1 .f32) (h : S2048x1.Broadcasts S2048x1024) (p : Fin 2048) (q : Fin 1024) :
    broadcastTo S2048x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row `[1, 1024]` broadcast to `[2048, 1024]` reads, at `(p, q)`, the row at `(0, q)`. -/
theorem bcast_row (v : Vec Ideal S1x1024 .f32) (h : S1x1024.Broadcasts S2048x1024) (p : Fin 2048) (q : Fin 1024) :
    broadcastTo S2048x1024 v h (ix2 p q) = v (ix2 (0 : Fin 1) q) :=
  broadcastTo_1b_ab_apply v h p q

/-- The weight tile at `(p, q)`: the Gaussian weight of training point `p` for query `q`. -/
theorem pay3_apply (v3 : Vec Ideal S2048x1 .f32) (v4 v6 : Vec Ideal S1x1024 .f32) (p : Fin 2048) (q : Fin 1024) :
    k0_pay3 (F := Ideal) v3 v4 v6 (ix2 p q) = wK (v3 (ix2 p 0)) (v4 (ix2 0 q)) (v6 (ix2 0 q)) := by
  unfold k0_pay3 wK
  simp only [shapeCast_self]
  show Ideal.exp ((nh * ((broadcastTo S2048x1024 v3 broadcasts_S2048x1_S2048x1024 (ix2 p q)
        - broadcastTo S2048x1024 v4 broadcasts_S1x1024_S2048x1024 (ix2 p q))
      * (broadcastTo S2048x1024 v3 broadcasts_S2048x1_S2048x1024 (ix2 p q)
        - broadcastTo S2048x1024 v4 broadcasts_S1x1024_S2048x1024 (ix2 p q))))
      * broadcastTo S2048x1024 v6 broadcasts_S1x1024_S2048x1024 (ix2 p q)) = _
  rw [bcast_col, bcast_row, bcast_row]

/-- The sum over the training axis of a `[2048, 1024]` tile, read at query `q`: the sum over the rows `r` of the tile
    at `(r, q)`. -/
theorem colsum_apply (src : FVec Ideal S2048x1024 .f32) (h : S2048x1024.Reduces [0] S1024) (hφ : FKind.Formats .f32)
    (hacc : (0x00000000#32 : BitVec 32) = 0x00000000#32) (q : Fin 1024) :
    multiReduction (F := Ideal) .add [0] S1024 src 0x00000000#32 h hφ hacc (ix1 q) = ∑ r : Fin 2048, src (ix2 r q) := by
  refine (Ideal.multiReduction_add_single src 0x00000000#32 h hφ hacc (ix1 q)).trans ?_
  refine Finset.sum_congr rfl fun r _ => congrArg src ?_
  funext a
  match a with
  | ⟨0, _⟩ => rfl
  | ⟨1, _⟩ => rfl

/-- A `[1024]` vector cast to `[1, 1024]` reads, at `(0, q)`, the vector at `q`. -/
theorem cast_row (x : FVec Ideal S1024 .f32) (h : S1024.ShapeCasts S1x1024) (q : Fin 1024) :
    shapeCast S1x1024 x h (ix2 (0 : Fin 1) q) = x (ix1 q) :=
  shapeCast_a_1a_apply x h 0 q

/-- The denominator's store: the accumulator plus the sum of the weights of the tile's 2048 training points. -/
theorem pay_den (v3 : Vec Ideal S2048x1 .f32) (v4 v6 acc : Vec Ideal S1x1024 .f32) (j : Fin 1024) :
    k0_pay4 (F := Ideal) v3 v4 v6 acc (ix2 0 j)
      = acc (ix2 0 j) + ∑ r : Fin 2048, wK (v3 (ix2 r 0)) (v4 (ix2 0 j)) (v6 (ix2 0 j)) := by
  unfold k0_pay4
  simp only [shapeCast_self]
  show acc (ix2 0 j) + shapeCast S1x1024 (multiReduction (F := Ideal) .add [0] S1024 (k0_pay3 v3 v4 v6) 0x00000000#32
      reduces_S2048x1024_S1024 (.inl rfl) rfl) shapeCasts_S1024_S1x1024 (ix2 (0 : Fin 1) j) = _
  rw [cast_row, colsum_apply]
  exact congrArg _ (Finset.sum_congr rfl fun r _ => pay3_apply v3 v4 v6 r j)

/-- The numerator's store: the accumulator plus the sum of weight times position over the tile's 2048 training
    points. -/
theorem pay_num (v3 : Vec Ideal S2048x1 .f32) (v4 v6 acc : Vec Ideal S1x1024 .f32) (j : Fin 1024) :
    k0_pay5 (F := Ideal) v3 v4 v6 acc (ix2 0 j)
      = acc (ix2 0 j) + ∑ r : Fin 2048, wK (v3 (ix2 r 0)) (v4 (ix2 0 j)) (v6 (ix2 0 j)) * v3 (ix2 r 0) := by
  unfold k0_pay5
  simp only [shapeCast_self]
  show acc (ix2 0 j) + shapeCast S1x1024 (multiReduction (F := Ideal) .add [0] S1024
      (mulf (k0_pay3 v3 v4 v6) (broadcastTo S2048x1024 v3 broadcasts_S2048x1_S2048x1024)) 0x00000000#32
      reduces_S2048x1024_S1024 (.inl rfl) rfl) shapeCasts_S1024_S1x1024 (ix2 (0 : Fin 1) j) = _
  rw [cast_row, colsum_apply]
  refine congrArg _ (Finset.sum_congr rfl fun r _ => ?_)
  show k0_pay3 (F := Ideal) v3 v4 v6 (ix2 r j) * broadcastTo S2048x1024 v3 broadcasts_S2048x1_S2048x1024 (ix2 r j) = _
  rw [pay3_apply, bcast_col]

/-- The first zero block: every entry is `0`. -/
theorem pay_zero1 (j : Fin 1024) : k0_pay1 (F := Ideal) (ix2 0 j) = 0 := by
  unfold k0_pay1
  simp only [shapeCast_self]
  show Ideal.ofBits .f32 0x00000000#32 = 0
  exact Ideal.ofBits_zero_f32

/-- The second zero block: every entry is `0`. -/
theorem pay_zero2 (j : Fin 1024) : k0_pay2 (F := Ideal) (ix2 0 j) = 0 := by
  unfold k0_pay2
  simp only [shapeCast_self]
  show Ideal.ofBits .f32 0x00000000#32 = 0
  exact Ideal.ofBits_zero_f32

end Cert.NW.Pay

end
-- ==== Proof.Blocks.lean ====
/-
  What the kernel's three input blocks hold, entry by entry, in terms of the program's three arguments.

  The grid has 16 × 8 = 128 points and point `t` has coordinates `(t / 8, t % 8)`. The training positions `[16384, 1]`
  are cut into eight blocks `[2048, 1]` and point `t` sees block `t % 8`: its entry `(r, 0)` is training point
  `(t % 8)·2048 + r`. The queries enter as two rows `[1, 16384]` written before the region: the query positions
  `[16384, 1]` flattened and laid along the second axis, and `1 / σ²` of the query times, `σ²` the product of the square
  root of `(exp ((2·t)·log 25) - 1) / (2·log 25)` with itself. Each row is cut into sixteen blocks `[1, 1024]` and point `t`
  sees block `t / 8`: entry `(0, j)` belongs to query `(t / 8)·1024 + j`.

  A block's coordinate in its array is (block index) × (block extent) + (coordinate inside the block) on every axis; the
  block indices are decided once over the 128 points, and the rest is arithmetic. Every operation that writes the two rows
  is pointwise or a change of layout, so each row read at one entry is the scalar formula at that entry.
-/
import proofs.«162017_j15556371546670_1_alg».proof.Proof.Gen.KernelIdeal.Frame
import proofs.«162017_j15556371546670_1_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.NW.Blk

open Cert.KernelIdeal Cert.KernelIdeal.Gen Idealize.ShloMosaic Idealize.ShloMosaic.TcCoe Idealize.ShloMosaic.ValueIdx Idealize.SL.Sem Cert.NW

variable (m : (ℓ : Loc nD τ sig) → Buf (Elt Ideal) ℓ)

/-! ## The index maps, decided once over the 128 grid points

Grid point `t` has coordinates `(t / 8, t % 8)`: the training window moves with the second coordinate, the two query
windows with the first. -/

/-- The training window's block index at point `t` is `(t % 8, 0)`. -/
theorem idx_tr : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)

/-- The query-position window's block index at point `t` is `(0, t / 8)`. -/
theorem idx_x : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)

/-- The reciprocal-variance window's block index at point `t` is `(0, t / 8)`. -/
theorem idx_inv : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- A grid point is below 128, so its query tile `t / 8` is below 16. -/
theorem tile_lt (t : Fin cfg0.N) : t.val / 8 % 16 = t.val / 8 := by
  have h : t.val < 128 := lt_of_lt_of_eq t.isLt N_0
  omega

/-! ## The training block -/

/-- Entry `(r, 0)` of the training block at point `t` is training point `(t % 8)·2048 + r`. -/
theorem blk_tr (c : Dev nD) (t : Fin cfg0.N) (r : Fin 2048) :
    (iblk m c 0 t : Vec Ideal S2048x1 .f32) (ix2 r 0) = m ((c : Thread nD τ).loc main_arg2) (ix2 (trIdx t.val r) 0) := by
  unfold iblk
  rw [View.read_apply]
  show V m c main_arg2 (((cfg0.win 0).blk t).view.emb (ix2 r 0)) = _
  rw [V_main_arg2]
  refine congrArg _ ?_
  funext a; apply Fin.ext
  obtain ⟨e0, e1⟩ := idx_tr t
  match a with
  | ⟨0, _⟩ => show win0_0.index t (0 : Fin 2) * 2048 + 1 * r.val = (t.val % 8) * 2048 + r.val; omega
  | ⟨1, _⟩ => show win0_0.index t (1 : Fin 2) * 1 + 1 * 0 = 0; omega

/-! ## The two arrays the host writes before the region -/

/-- The word `0x3F800000` denotes `1`. -/
private theorem ofBits_one : Ideal.ofBits .f32 0x3F800000#32 = 1 := by
  simp [Ideal.ofBits, Ideal.ieee, -EReal.coe_mul]; norm_num

/-- The quotient under the square root for every time at once, operation by operation as the host computes it:
    `(exp ((2·t)·log 25) - 1) / (2·log 25)`, the scalars broadcast along the times. -/
abbrev varVec (x1 : FVec Ideal S16384 .f32) : FVec Ideal S16384 .f32 :=
  Host.divf
    (subf
      (Host.exp
        (mulf
          (mulf (broadcastInDim S16384 ![] bcast_S_S16384 (constant (F := Ideal) S_ .f32 0x40000000#32)) x1)
          (broadcastInDim S16384 ![] bcast_S_S16384 (id (Host.log (constant (F := Ideal) S_ .f32 0x41C80000#32))))))
      (broadcastInDim S16384 ![] bcast_S_S16384 (constant (F := Ideal) S_ .f32 0x3F800000#32)))
    (broadcastInDim S16384 ![] bcast_S_S16384
      (id (mulf (constant (F := Ideal) S_ .f32 0x40000000#32) (Host.log (constant (F := Ideal) S_ .f32 0x41C80000#32)))))

/-- The variance of every time at once: the square of the square root of that quotient. -/
abbrev sig2Vec (x1 : FVec Ideal S16384 .f32) : FVec Ideal S16384 .f32 :=
  mulf (Host.sqrt (varVec x1)) (Host.sqrt (varVec x1))

/-- Read at time `b` it is the variance of that time: every operation is pointwise and every scalar is constant. -/
theorem sig2Vec_apply (x1 : FVec Ideal S16384 .f32) (b : Fin 16384) : sig2Vec x1 (ix1 b) = sig2 (x1 (ix1 b)) := rfl

/-- The variance array the region finds holds `σ²` of each time. -/
theorem v14_eq (c : Dev nD) (b : Fin 16384) :
    (V m c main_v14 : FVec Ideal S16384 .f32) (ix1 b) = sig2 (m ((c : Thread nD τ).loc main_arg1) (ix1 b)) := by
  have e : (V m c main_v14 : S16384.Idx → EReal) = sig2Vec (m ((c : Thread nD τ).loc main_arg1)) := by
    show StableHlo.after hostOps0 (fun b => m (c, b)) (Proc.devRef .tc main_v14) = _
    after_results
  exact (congrFun e (ix1 b)).trans (sig2Vec_apply _ b)

/-- A vector `[16384]` laid along the second axis of `[1, 16384]` reads, at `(0, b)`, its entry `b`. -/
theorem row_apply (y : FVec Ideal S16384 .f32) (b : Fin 16384) :
    broadcastInDim S1x16384 ![1] bcast_S16384_S1x16384_1 y (ix2 0 b) = y (ix1 b) :=
  broadcastInDim_apply _ bcast_S16384_S1x16384_1 y (ix2 0 b) (ix1 b) (fun a => match a with
    | ⟨0, _⟩ => by show b.val = if (16384 : Nat) = 1 then 0 else b.val; rw [if_neg (by decide)])

/-- A column `[16384, 1]` flattened to `[16384]` reads, at `b`, its entry `(b, 0)`: both sit at row-major
    position `b`. -/
theorem flat_apply (x0 : Vec Ideal S16384x1 .f32) (b : Fin 16384) :
    shapeCast S16384 x0 shapeCasts_S16384x1_S16384 (ix1 b) = x0 (ix2 b 0) :=
  shapeCast_apply x0 shapeCasts_S16384x1_S16384 (ix1 b) (ix2 b 0)
    (by rewrite [Shape.rowMajor_val_two, Shape.rowMajor_val_one]; show b.val * 1 + 0 = b.val; omega)

/-- The query-position row the region finds: entry `(0, b)` is query `b`'s position. -/
theorem v18_apply (c : Dev nD) (b : Fin 16384) :
    (V m c main_v18 : Vec Ideal S1x16384 .f32) (ix2 0 b) = m ((c : Thread nD τ).loc main_arg0) (ix2 b 0) := by
  have e : (V m c main_v18 : S1x16384.Idx → EReal)
      = broadcastInDim S1x16384 ![1] bcast_S16384_S1x16384_1
          (shapeCast S16384 (m ((c : Thread nD τ).loc main_arg0)) shapeCasts_S16384x1_S16384) := by
    show StableHlo.after hostOps0 (fun b => m (c, b)) (Proc.devRef .tc main_v18) = _
    after_results; rfl
  exact (congrFun e (ix2 0 b)).trans ((row_apply _ b).trans (flat_apply _ b))

/-- The reciprocal-variance row the region finds: entry `(0, b)` is `1 / σ²` of query `b`'s time. -/
theorem v19_apply (c : Dev nD) (b : Fin 16384) :
    (V m c main_v19 : Vec Ideal S1x16384 .f32) (ix2 0 b) = Ideal.div 1 (sig2 (m ((c : Thread nD τ).loc main_arg1) (ix1 b))) := by
  have e : (V m c main_v19 : S1x16384.Idx → EReal)
      = broadcastInDim S1x16384 ![1] bcast_S16384_S1x16384_1
          (Host.divf (broadcastInDim S16384 ![] bcast_S_S16384 (constant (F := Ideal) S_ .f32 0x3F800000#32))
            (sig2Vec (m ((c : Thread nD τ).loc main_arg1)))) := by
    show StableHlo.after hostOps0 (fun b => m (c, b)) (Proc.devRef .tc main_v19) = _
    after_results
  refine (congrFun e (ix2 0 b)).trans ((row_apply _ b).trans ?_)
  show Ideal.div (Ideal.ofBits .f32 0x3F800000#32) (sig2Vec (m ((c : Thread nD τ).loc main_arg1)) (ix1 b)) = _
  rw [ofBits_one, sig2Vec_apply]

/-! ## The two query blocks -/

/-- Entry `(0, j)` of the query-position block at point `t` is the position of query `(t / 8)·1024 + j`. -/
theorem blk_x (c : Dev nD) (t : Fin cfg0.N) (j : Fin 1024) :
    (iblk m c 1 t : Vec Ideal S1x1024 .f32) (ix2 0 j) = m ((c : Thread nD τ).loc main_arg0) (ix2 (qIdx t.val j) 0) := by
  unfold iblk
  rw [View.read_apply]
  show V m c main_v18 (((cfg0.win 1).blk t).view.emb (ix2 0 j)) = _
  refine Eq.trans (congrArg _ ?_) (v18_apply m c (qIdx t.val j))
  funext a; apply Fin.ext
  obtain ⟨e0, e1⟩ := idx_x t
  have ht := tile_lt t
  match a with
  | ⟨0, _⟩ => show win0_1.index t (0 : Fin 2) * 1 + 1 * 0 = 0; omega
  | ⟨1, _⟩ => show win0_1.index t (1 : Fin 2) * 1024 + 1 * j.val = (t.val / 8 % 16) * 1024 + j.val; omega

/-- Entry `(0, j)` of the reciprocal-variance block at point `t` is `1 / σ²` of the time of query `(t / 8)·1024 + j`. -/
theorem blk_inv (c : Dev nD) (t : Fin cfg0.N) (j : Fin 1024) :
    (iblk m c 2 t : Vec Ideal S1x1024 .f32) (ix2 0 j) = Ideal.div 1 (sig2 (m ((c : Thread nD τ).loc main_arg1) (ix1 (qIdx t.val j)))) := by
  unfold iblk
  rw [View.read_apply]
  show V m c main_v19 (((cfg0.win 2).blk t).view.emb (ix2 0 j)) = _
  refine Eq.trans (congrArg _ ?_) (v19_apply m c (qIdx t.val j))
  funext a; apply Fin.ext
  obtain ⟨e0, e1⟩ := idx_inv t
  have ht := tile_lt t
  match a with
  | ⟨0, _⟩ => show win0_2.index t (0 : Fin 2) * 1 + 1 * 0 = 0; omega
  | ⟨1, _⟩ => show win0_2.index t (1 : Fin 2) * 1024 + 1 * j.val = (t.val / 8 % 16) * 1024 + j.val; omega

end Cert.NW.Blk

end
-- ==== Proof.Acc.lean ====
/-
  The kernel's running sums over the grid.

  The grid has 16 × 8 = 128 points; point t works on query tile t / 8 (1024 queries) and training tile t % 8
  (2048 training points), the training tile moving fastest. Two sums are carried from point to point, for each
  query of the tile: the sum of weight times position and the sum of the weights. At a query tile's first
  training tile both restart from zero; at every point the tile's 2048 terms are added; at the last training tile
  both are copied to the output blocks.

  The invariant, by induction on the point: after point n the carried sums at query column j are the running sums
  `tiles f (n % 8)` of the summand f over the training tiles 0 … n % 8, for the query `qIdx n j`. A point whose
  index is not a multiple of 8 has the same query tile as the point before it, and the next training tile. After
  the eighth tile the running sum is the sum over all 16384 training points, and the output blocks hold it.
-/
import proofs.«162017_j15556371546670_1_alg».proof.Proof.Gen.KernelIdeal.Frame
import proofs.«162017_j15556371546670_1_alg».proof.Proof.Spec
import proofs.«162017_j15556371546670_1_alg».proof.Proof.Pieces
import proofs.«162017_j15556371546670_1_alg».proof.Proof.PayIdx
import proofs.«162017_j15556371546670_1_alg».proof.Proof.Blocks

noncomputable section

namespace Cert.NW.Acc

open Cert.KernelIdeal Cert.KernelIdeal.Gen Idealize.ShloMosaic Idealize.ShloMosaic.TcCoe Idealize.ShloMosaic.ValueIdx Idealize.SL.Sem Cert.NW

variable (m : (ℓ : Loc nD τ sig) → Buf (Elt Ideal) ℓ)

/-- The kernel's weight of training point n for query b. -/
def wgt (c : Dev nD) (b n : Fin 16384) : EReal := wK (m ((c : Thread nD τ).loc main_arg2) (ix2 n 0)) (m ((c : Thread nD τ).loc main_arg0) (ix2 b 0)) (Ideal.div 1 (sig2 (m ((c : Thread nD τ).loc main_arg1) (ix1 b))))

/-- The summand of the numerator: weight times position. -/
private abbrev fnum (c : Dev nD) (b : Fin 16384) (k : Fin 16384) : EReal := wgt m c b k * m ((c : Thread nD τ).loc main_arg2) (ix2 k 0)

/-- The training tile, the query tile and the reciprocal-variance tile of a point, at their literal types. -/
private abbrev trb (c : Dev nD) (t : Fin cfg0.N) : Vec Ideal S2048x1 .f32 := iblk m c 0 t
private abbrev xb (c : Dev nD) (t : Fin cfg0.N) : Vec Ideal S1x1024 .f32 := iblk m c 1 t
private abbrev ib (c : Dev nD) (t : Fin cfg0.N) : Vec Ideal S1x1024 .f32 := iblk m c 2 t

/-- A function of the training points, extended, read at training point r of tile k % 8. -/
private theorem ext_tile (g : Fin 16384 → EReal) (k : ℕ) (r : Fin 2048) : ext g ((k % 8) * 2048 + r.val) = g (trIdx k r) := by
  have hr := r.isLt
  have hk := Nat.mod_lt k (show 0 < 8 by norm_num)
  unfold ext trIdx
  rw [dif_pos (by omega)]

private theorem tiles_first (f : ℕ → EReal) : tiles f 0 = 0 + ∑ r : Fin 2048, f (0 * 2048 + r.val) := by
  rw [tiles]; simp only [Nat.zero_mul, Nat.zero_add]

private theorem tiles_next (f : ℕ → EReal) (k : ℕ) : tiles f (k + 1) = tiles f k + ∑ r : Fin 2048, f ((k + 1) * 2048 + r.val) := by
  rw [tiles]

/-- The three tiles of a point read at an entry: entries of the three arrays. -/
private theorem trb_apply (c : Dev nD) (t : Fin cfg0.N) (r : Fin 2048) :
    trb m c t (ix2 r 0) = m ((c : Thread nD τ).loc main_arg2) (ix2 (trIdx t.val r) 0) := Blk.blk_tr m c t r
private theorem xb_apply (c : Dev nD) (t : Fin cfg0.N) (j : Fin 1024) :
    xb m c t (ix2 0 j) = m ((c : Thread nD τ).loc main_arg0) (ix2 (qIdx t.val j) 0) := Blk.blk_x m c t j
private theorem ib_apply (c : Dev nD) (t : Fin cfg0.N) (j : Fin 1024) :
    ib m c t (ix2 0 j) = Ideal.div 1 (sig2 (m ((c : Thread nD τ).loc main_arg1) (ix1 (qIdx t.val j)))) := Blk.blk_inv m c t j

/-- The weight the body forms at point t for training row r and query column j is the weight of the two points. -/
private theorem w_tile (c : Dev nD) (t : Fin cfg0.N) (r : Fin 2048) (j : Fin 1024) :
    wK (trb m c t (ix2 r 0)) (xb m c t (ix2 0 j)) (ib m c t (ix2 0 j)) = wgt m c (qIdx t.val j) (trIdx t.val r) := by
  unfold wgt
  rw [trb_apply m c t r, xb_apply m c t j, ib_apply m c t j]

/-- One point's update of the denominator, at query column j. -/
private theorem step_den (c : Dev nD) (t : Fin cfg0.N) (acc : Vec Ideal S1x1024 .f32) (j : Fin 1024) :
    k0_pay4 (F := Ideal) (trb m c t) (xb m c t) (ib m c t) acc (ix2 0 j)
      = acc (ix2 0 j) + ∑ r : Fin 2048, ext (fun k => wgt m c (qIdx t.val j) k) ((t.val % 8) * 2048 + r.val) := by
  refine (Pay.pay_den (trb m c t) (xb m c t) (ib m c t) acc j).trans ?_
  refine congrArg _ (Finset.sum_congr rfl fun r _ => ?_)
  rw [ext_tile]
  exact w_tile m c t r j

/-- One point's update of the numerator, at query column j. -/
private theorem step_num (c : Dev nD) (t : Fin cfg0.N) (acc : Vec Ideal S1x1024 .f32) (j : Fin 1024) :
    k0_pay5 (F := Ideal) (trb m c t) (xb m c t) (ib m c t) acc (ix2 0 j)
      = acc (ix2 0 j) + ∑ r : Fin 2048, ext (fun k => fnum m c (qIdx t.val j) k) ((t.val % 8) * 2048 + r.val) := by
  refine (Pay.pay_num (trb m c t) (xb m c t) (ib m c t) acc j).trans ?_
  refine congrArg _ (Finset.sum_congr rfl fun r _ => ?_)
  rw [ext_tile, w_tile m c t r j, trb_apply m c t r]

/-- At a query tile's first training tile both sums restart: zero plus the tile's sums. -/
private theorem inv_first (c : Dev nD) (t : Fin cfg0.N) (h0 : t.val % 8 = 0) (j : Fin 1024) :
    ((outsAt0 m c t.val t.isLt).2.2.1 : Vec Ideal S1x1024 .f32) (ix2 0 j)
        = tiles (ext fun k => fnum m c (qIdx t.val j) k) (t.val % 8)
      ∧ ((outsAt0 m c t.val t.isLt).2.2.2 : Vec Ideal S1x1024 .f32) (ix2 0 j)
        = tiles (ext fun k => wgt m c (qIdx t.val j) k) (t.val % 8) := by
  have h1 : ¬t.val % 8 = 7 := by omega
  rw [outsAt0_A m c t h0 h1]; dsimp only
  refine ⟨?_, ?_⟩
  · refine (congrFun (Pieces.num_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (trb m c t) (xb m c t) (ib m c t)) (ix2 0 j)).trans ?_
    refine (step_num m c t (k0_pay1 (F := Ideal)) j).trans ?_
    rw [Pay.pay_zero1 j, h0, tiles_first]
  · refine (congrFun (Pieces.den_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (trb m c t) (xb m c t) (ib m c t)) (ix2 0 j)).trans ?_
    refine (step_den m c t (k0_pay2 (F := Ideal)) j).trans ?_
    rw [Pay.pay_zero2 j, h0, tiles_first]

/-- What the point before left in the two carried sums. -/
private abbrev prevNum (c : Dev nD) (t : Fin cfg0.N) : Vec Ideal S1x1024 .f32 :=
  (outsAt0 m c (t.val - 1) (Nat.lt_of_le_of_lt (Nat.sub_le _ _) t.isLt)).2.2.1
private abbrev prevDen (c : Dev nD) (t : Fin cfg0.N) : Vec Ideal S1x1024 .f32 :=
  (outsAt0 m c (t.val - 1) (Nat.lt_of_le_of_lt (Nat.sub_le _ _) t.isLt)).2.2.2

/-- At a later training tile of the same query tile both sums grow by the tile's sums. The point before is in the
    same query tile (its index is not a multiple of 8), so its queries are the same, and its tile is the one before. -/
private theorem inv_next (c : Dev nD) (t : Fin cfg0.N) (h0 : ¬t.val % 8 = 0) (j : Fin 1024)
    (ih : prevNum m c t (ix2 0 j) = tiles (ext fun k => fnum m c (qIdx (t.val - 1) j) k) ((t.val - 1) % 8)
      ∧ prevDen m c t (ix2 0 j) = tiles (ext fun k => wgt m c (qIdx (t.val - 1) j) k) ((t.val - 1) % 8)) :
    ((outsAt0 m c t.val t.isLt).2.2.1 : Vec Ideal S1x1024 .f32) (ix2 0 j)
        = tiles (ext fun k => fnum m c (qIdx t.val j) k) (t.val % 8)
      ∧ ((outsAt0 m c t.val t.isLt).2.2.2 : Vec Ideal S1x1024 .f32) (ix2 0 j)
        = tiles (ext fun k => wgt m c (qIdx t.val j) k) (t.val % 8) := by
  have hq : qIdx (t.val - 1) j = qIdx t.val j := by
    apply Fin.ext
    show (t.val - 1) / 8 % 16 * 1024 + j.val = t.val / 8 % 16 * 1024 + j.val
    have : (t.val - 1) / 8 = t.val / 8 := by omega
    rw [this]
  obtain ⟨k, hk⟩ : ∃ k, t.val % 8 = k + 1 := Nat.exists_eq_succ_of_ne_zero h0
  have hk' : (t.val - 1) % 8 = k := by omega
  rw [hq, hk'] at ih
  obtain ⟨ihn, ihd⟩ := ih
  by_cases h1 : t.val % 8 = 7
  · rw [outsAt0_C m c t h0 h1]; dsimp only
    refine ⟨?_, ?_⟩
    · refine (congrFun (Pieces.num_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (trb m c t) (xb m c t) (ib m c t) (prevNum m c t) (prevDen m c t)) (ix2 0 j)).trans ?_
      refine (step_num m c t (prevNum m c t) j).trans ?_
      rw [ihn, hk, tiles_next]
    · refine (congrFun (Pieces.den_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (trb m c t) (xb m c t) (ib m c t) (prevNum m c t) (prevDen m c t)) (ix2 0 j)).trans ?_
      refine (step_den m c t (prevDen m c t) j).trans ?_
      rw [ihd, hk, tiles_next]
  · rw [outsAt0_B m c t h0 h1]; dsimp only
    refine ⟨?_, ?_⟩
    · refine (congrFun (Pieces.num_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (trb m c t) (xb m c t) (ib m c t) (prevNum m c t) (prevDen m c t)) (ix2 0 j)).trans ?_
      refine (step_num m c t (prevNum m c t) j).trans ?_
      rw [ihn, hk, tiles_next]
    · refine (congrFun (Pieces.den_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (trb m c t) (xb m c t) (ib m c t) (prevNum m c t) (prevDen m c t)) (ix2 0 j)).trans ?_
      refine (step_den m c t (prevDen m c t) j).trans ?_
      rw [ihd, hk, tiles_next]

/-- After every point the two carried sums are the running sums over the training tiles of its query tile seen so
    far: by induction on the point. -/
private theorem inv (c : Dev nD) : ∀ (n : ℕ) (h : n < cfg0.N) (j : Fin 1024),
    ((outsAt0 m c n h).2.2.1 : Vec Ideal S1x1024 .f32) (ix2 0 j) = tiles (ext fun k => fnum m c (qIdx n j) k) (n % 8)
      ∧ ((outsAt0 m c n h).2.2.2 : Vec Ideal S1x1024 .f32) (ix2 0 j) = tiles (ext fun k => wgt m c (qIdx n j) k) (n % 8)
  | 0, h, j => inv_first m c ⟨0, h⟩ (Nat.zero_mod 8) j
  | n + 1, h, j => by
    by_cases h0 : (n + 1) % 8 = 0
    · exact inv_first m c ⟨n + 1, h⟩ h0 j
    · exact inv_next m c ⟨n + 1, h⟩ h0 j (inv c n (Nat.lt_of_succ_lt h) j)

/-- At a query tile's last training tile the numerator's output block holds the whole sum of weight times position. -/
theorem out_num (c : Dev nD) (t : Fin cfg0.N) (h7 : t.val % 8 = 7) (j : Fin 1024) : ((outsAt0 m c t.val t.isLt).1 : Vec Ideal S1x1024 .f32) (ix2 0 j) = ∑ n : Fin 16384, wgt m c (qIdx t.val j) n * m ((c : Thread nD τ).loc main_arg2) (ix2 n 0) := by
  have h0 : ¬t.val % 8 = 0 := by omega
  have e : ((outsAt0 m c t.val t.isLt).1 : Vec Ideal S1x1024 .f32) (ix2 0 j)
      = ((outsAt0 m c t.val t.isLt).2.2.1 : Vec Ideal S1x1024 .f32) (ix2 0 j) := by
    rw [outsAt0_C m c t h0 h7]; dsimp only
    exact (congrFun (Pieces.num_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (trb m c t) (xb m c t) (ib m c t) (prevNum m c t) (prevDen m c t)) (ix2 0 j)).trans
      (congrFun (Pieces.num_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (trb m c t) (xb m c t) (ib m c t) (prevNum m c t) (prevDen m c t)) (ix2 0 j)).symm
  refine e.trans (((inv m c t.val t.isLt j).1).trans ?_)
  rw [h7]
  exact tiles_ext (fun k => fnum m c (qIdx t.val j) k)

/-- At a query tile's last training tile the denominator's output block holds the whole sum of the weights. -/
theorem out_den (c : Dev nD) (t : Fin cfg0.N) (h7 : t.val % 8 = 7) (j : Fin 1024) : ((outsAt0 m c t.val t.isLt).2.1 : Vec Ideal S1x1024 .f32) (ix2 0 j) = ∑ n : Fin 16384, wgt m c (qIdx t.val j) n := by
  have h0 : ¬t.val % 8 = 0 := by omega
  have e : ((outsAt0 m c t.val t.isLt).2.1 : Vec Ideal S1x1024 .f32) (ix2 0 j)
      = ((outsAt0 m c t.val t.isLt).2.2.2 : Vec Ideal S1x1024 .f32) (ix2 0 j) := by
    rw [outsAt0_C m c t h0 h7]; dsimp only
    exact (congrFun (Pieces.den_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (trb m c t) (xb m c t) (ib m c t) (prevNum m c t) (prevDen m c t)) (ix2 0 j)).trans
      (congrFun (Pieces.den_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (trb m c t) (xb m c t) (ib m c t) (prevNum m c t) (prevDen m c t)) (ix2 0 j)).symm
  refine e.trans (((inv m c t.val t.isLt j).2).trans ?_)
  rw [h7]
  exact tiles_ext (fun k => wgt m c (qIdx t.val j) k)

end Cert.NW.Acc

end
-- ==== Proof.Final.lean ====
/-
  From the written-back blocks to the two output arrays.

  The grid is 16 × 8: point `t = 8·b + n` works on query tile `b = t / 8` and training tile `n = t % 8`. Each output
  array is `[1, 16384]`, its block `[1, 1024]` at block index `(0, t / 8)`, and a block is written back only at the last
  training tile, `t % 8 = 7`. So if what every such point leaves in an output's block is a whole-array function `G` on
  the block's columns, `(0, (t / 8)·1024 + j)`, the array ends holding `G`: column `b` of the array lies in the block
  of the point `8·(b / 1024) + 7`, and the sixteen blocks written back tile the array.
-/
import proofs.«162017_j15556371546670_1_alg».proof.Proof.Gen.KernelIdeal.Frame
import proofs.«162017_j15556371546670_1_alg».proof.Proof.Spec
import Idealize.ShloMosaic.Lib.Pipeline.Value
import Idealize.ShloMosaic.Lib.ValueIdx

noncomputable section

namespace Cert.NW.Fin

open Cert.KernelIdeal Cert.KernelIdeal.Gen Idealize.ShloMosaic Idealize.ShloMosaic.TcCoe Idealize.ShloMosaic.ValueIdx Idealize.SL.Sem Cert.NW
open Idealize.ShloMosaic.Pipeline (Dat)

variable (m : (ℓ : Loc nD τ sig) → Buf (Elt Ideal) ℓ)

/-! ## The first output array (the numerators' sums) -/

/-- The block index of window 3, decided over the grid: row `0`, column block `t / 8`. -/
theorem idx_num : ∀ t : Fin cfg0.N, win0_3.index t (0 : Fin 2) = 0 ∧ win0_3.index t (1 : Fin 2) = t.val / 8 :=
  (by decide +kernel : ∀ t : Fin grid0.N, _)

/-- What a point of the last training tile writes back is its block of `G`: entry `(0, j)` of the block is column
    `(t / 8)·1024 + j` of the array. -/
theorem flushed_num (c : Dev nD) (G : FVec Ideal S1x16384 .f32)
    (hout : ∀ t : Fin cfg0.N, t.val % 8 = 7 → ∀ j : Fin 1024,
      ((outsAt0 m c t.val t.isLt).1 : Vec Ideal S1x1024 .f32) (ix2 0 j) = G (ix2 0 (qIdx t.val j)))
    (t : Fin cfg0.N) (hf : (cfg0.win 3).flush t = true) :
    (dats m 0 c).flushed 3 t = ((cfg0.win 3).blk t).view.read (Elt Ideal) G := by
  have h7 : t.val % 8 = 7 := (flush0_3 t).mp hf
  show (cfg0.win 3).cut (grid0.coords t) ((dats m 0 c).after 3 t) = _
  rw [after0_3]
  funext y
  have hy0 : (y 0).val < 1 := (y 0).isLt
  have hy1 : (y 1).val < 1024 := (y 1).isLt
  obtain ⟨e0, e1⟩ := idx_num t
  have hN : t.val < 128 := Nat.lt_of_lt_of_eq t.isLt N_0
  rw [View.read_apply]
  -- the block's entry read: row 0, column `y 1`
  have eL : (cfg0.win 3).xinj (grid0.coords t) y = (ix2 (0 : Fin 1) (⟨(y 1).val, hy1⟩ : Fin 1024) : S1x1024.Idx) := by
    funext a; apply Fin.ext
    match a with
    | ⟨0, _⟩ => show (y 0).val = 0; omega
    | ⟨1, _⟩ => rfl
  -- where that entry sits in the array: block index times block size plus the coordinate inside the block
  have eR : ((cfg0.win 3).blk t).view.emb y = (ix2 (0 : Fin 1) (qIdx t.val ⟨(y 1).val, hy1⟩) : S1x16384.Idx) := by
    funext a; apply Fin.ext
    match a with
    | ⟨0, _⟩ => show win0_3.index t 0 * 1 + 1 * (y 0).val = 0; rw [e0]; omega
    | ⟨1, _⟩ =>
      show win0_3.index t 1 * 1024 + 1 * (y 1).val = (t.val / 8 % 16) * 1024 + (y 1).val
      rw [e1]; omega
  show ((outsAt0 m c t.val t.isLt).1 : Vec Ideal S1x1024 .f32) ((cfg0.win 3).xinj (grid0.coords t) y) = G _
  rw [eL, eR]
  exact hout t h7 _

/-- An index of the array is in point `t`'s block iff each coordinate is in the block's range on its axis. -/
theorem mem_blk_num (t : Fin cfg0.N) (i : S1x16384.Idx) :
    i ∈ ((cfg0.win 3).blk t).view.set ↔ ∀ a : Fin 2, win0_3.index t a * S1x1024.size a ≤ (i a).val
      ∧ (i a).val < win0_3.index t a * S1x1024.size a + S1x1024.size a := by
  show i ∈ ((View.whole main_v20_0).slice (win0_3.rect t)).set ↔ _
  rw [View.set_slice_whole, Rect.mem_set_unit]
  exact Iff.rfl

/-- Column `b` of the array is in the block written back at point `8·(b / 1024) + 7`. -/
theorem cover_num (i : S1x16384.Idx) :
    ∃ t : Fin cfg0.N, (cfg0.win 3).flush t = true ∧ i ∈ ((cfg0.win 3).blk t).view.set := by
  have hi0 : (i 0).val < 1 := (i 0).isLt
  have hi1 : (i 1).val < 16384 := (i 1).isLt
  have hN : cfg0.N = 128 := N_0
  obtain ⟨t, ht⟩ : ∃ t : Fin cfg0.N, t.val = 8 * ((i 1).val / 1024) + 7 := ⟨⟨_, by omega⟩, rfl⟩
  obtain ⟨e0, e1⟩ := idx_num t
  refine ⟨t, (flush0_3 t).mpr (by omega), ?_⟩
  rw [mem_blk_num]
  intro a
  match a with
  | ⟨0, _⟩ =>
    show win0_3.index t 0 * 1 ≤ (i 0).val ∧ (i 0).val < win0_3.index t 0 * 1 + 1
    rw [e0]; omega
  | ⟨1, _⟩ =>
    show win0_3.index t 1 * 1024 ≤ (i 1).val ∧ (i 1).val < win0_3.index t 1 * 1024 + 1024
    rw [e1]; omega

/-- So the array ends holding `G`. -/
theorem final_num (c : Dev nD) (G : FVec Ideal S1x16384 .f32)
    (hout : ∀ t : Fin cfg0.N, t.val % 8 = 7 → ∀ j : Fin 1024,
      ((outsAt0 m c t.val t.isLt).1 : Vec Ideal S1x1024 .f32) (ix2 0 j) = G (ix2 0 (qIdx t.val j))) :
    (dats m 0 c).arrAt 3 cfg0.N = G :=
  (dats m 0 c).arrAt_eq_of_cover 3 G (flushed_num m c G hout) cover_num

/-! ## The second output array (the denominators' sums) -/

/-- The block index of window 4, decided over the grid: row `0`, column block `t / 8`. -/
theorem idx_den : ∀ t : Fin cfg0.N, win0_4.index t (0 : Fin 2) = 0 ∧ win0_4.index t (1 : Fin 2) = t.val / 8 :=
  (by decide +kernel : ∀ t : Fin grid0.N, _)

/-- What a point of the last training tile writes back is its block of `G`: entry `(0, j)` of the block is column
    `(t / 8)·1024 + j` of the array. -/
theorem flushed_den (c : Dev nD) (G : FVec Ideal S1x16384 .f32)
    (hout : ∀ t : Fin cfg0.N, t.val % 8 = 7 → ∀ j : Fin 1024,
      ((outsAt0 m c t.val t.isLt).2.1 : Vec Ideal S1x1024 .f32) (ix2 0 j) = G (ix2 0 (qIdx t.val j)))
    (t : Fin cfg0.N) (hf : (cfg0.win 4).flush t = true) :
    (dats m 0 c).flushed 4 t = ((cfg0.win 4).blk t).view.read (Elt Ideal) G := by
  have h7 : t.val % 8 = 7 := (flush0_4 t).mp hf
  show (cfg0.win 4).cut (grid0.coords t) ((dats m 0 c).after 4 t) = _
  rw [after0_4]
  funext y
  have hy0 : (y 0).val < 1 := (y 0).isLt
  have hy1 : (y 1).val < 1024 := (y 1).isLt
  obtain ⟨e0, e1⟩ := idx_den t
  have hN : t.val < 128 := Nat.lt_of_lt_of_eq t.isLt N_0
  rw [View.read_apply]
  -- the block's entry read: row 0, column `y 1`
  have eL : (cfg0.win 4).xinj (grid0.coords t) y = (ix2 (0 : Fin 1) (⟨(y 1).val, hy1⟩ : Fin 1024) : S1x1024.Idx) := by
    funext a; apply Fin.ext
    match a with
    | ⟨0, _⟩ => show (y 0).val = 0; omega
    | ⟨1, _⟩ => rfl
  -- where that entry sits in the array: block index times block size plus the coordinate inside the block
  have eR : ((cfg0.win 4).blk t).view.emb y = (ix2 (0 : Fin 1) (qIdx t.val ⟨(y 1).val, hy1⟩) : S1x16384.Idx) := by
    funext a; apply Fin.ext
    match a with
    | ⟨0, _⟩ => show win0_4.index t 0 * 1 + 1 * (y 0).val = 0; rw [e0]; omega
    | ⟨1, _⟩ =>
      show win0_4.index t 1 * 1024 + 1 * (y 1).val = (t.val / 8 % 16) * 1024 + (y 1).val
      rw [e1]; omega
  show ((outsAt0 m c t.val t.isLt).2.1 : Vec Ideal S1x1024 .f32) ((cfg0.win 4).xinj (grid0.coords t) y) = G _
  rw [eL, eR]
  exact hout t h7 _

/-- An index of the array is in point `t`'s block iff each coordinate is in the block's range on its axis. -/
theorem mem_blk_den (t : Fin cfg0.N) (i : S1x16384.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v20_1).slice (win0_4.rect t)).set ↔ _
  rw [View.set_slice_whole, Rect.mem_set_unit]
  exact Iff.rfl

/-- Column `b` of the array is in the block written back at point `8·(b / 1024) + 7`. -/
theorem cover_den (i : S1x16384.Idx) :
    ∃ t : Fin cfg0.N, (cfg0.win 4).flush t = true ∧ i ∈ ((cfg0.win 4).blk t).view.set := by
  have hi0 : (i 0).val < 1 := (i 0).isLt
  have hi1 : (i 1).val < 16384 := (i 1).isLt
  have hN : cfg0.N = 128 := N_0
  obtain ⟨t, ht⟩ : ∃ t : Fin cfg0.N, t.val = 8 * ((i 1).val / 1024) + 7 := ⟨⟨_, by omega⟩, rfl⟩
  obtain ⟨e0, e1⟩ := idx_den t
  refine ⟨t, (flush0_4 t).mpr (by omega), ?_⟩
  rw [mem_blk_den]
  intro a
  match a with
  | ⟨0, _⟩ =>
    show win0_4.index t 0 * 1 ≤ (i 0).val ∧ (i 0).val < win0_4.index t 0 * 1 + 1
    rw [e0]; omega
  | ⟨1, _⟩ =>
    show win0_4.index t 1 * 1024 ≤ (i 1).val ∧ (i 1).val < win0_4.index t 1 * 1024 + 1024
    rw [e1]; omega

/-- So the array ends holding `G`. -/
theorem final_den (c : Dev nD) (G : FVec Ideal S1x16384 .f32)
    (hout : ∀ t : Fin cfg0.N, t.val % 8 = 7 → ∀ j : Fin 1024,
      ((outsAt0 m c t.val t.isLt).2.1 : Vec Ideal S1x1024 .f32) (ix2 0 j) = G (ix2 0 (qIdx t.val j))) :
    (dats m 0 c).arrAt 4 cfg0.N = G :=
  (dats m 0 c).arrAt_eq_of_cover 4 G (flushed_den m c G hout) cover_den

end Cert.NW.Fin

end
-- ==== Proof.HostTail.lean ====
/-
  The kernel program after its region: from the two arrays the region leaves — the numerators and the denominators,
  each a row `[1,16384]` — to the program's result.

  The host operations after the region flatten each row to a vector, guard the quotient against a zero denominator
  (`where (den = 0) 0 (num / where (den = 0) 1 den)`), put the quotient on a column, subtract the queries and divide by
  the variances: the operations of `tail`, word for word, applied to the two flattened rows, the queries as launched and
  the variances as the operations before the region left them. A flattened row read at `b` is the row at `(0, b)`.
-/
import proofs.«162017_j15556371546670_1_alg».proof.Proof.Gen.KernelIdeal.Frame
import proofs.«162017_j15556371546670_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.NW.Tl

open Cert.KernelIdeal Cert.KernelIdeal.Gen Idealize.ShloMosaic Idealize.ShloMosaic.TcCoe Idealize.ShloMosaic.ValueIdx Idealize.SL.Sem Cert.NW

variable (m : (ℓ : Loc nD τ sig) → Buf (Elt Ideal) ℓ)

/-- The result's buffer is unscoped and is no window's array: it is among the buffers the region passes by. -/
theorem v33_rest : main_v33 ∈ Pipeline.restRefs sig cfg0.spec :=
  Pipeline.mem_restRefs_of main_v33 (by decide) (by decide)

/-- What the result buffer holds after the operations that follow the region: `tail` of the flattened numerators
    (window 3's array), the flattened denominators (window 4's array), the queries as launched and the variances as
    the region found them. Each operation's result is read at its own buffer and passed through at every other; the two
    arrays are the region's, the queries and the variances are no array of the region and keep their contents; the casts
    along the typed references' types are identities. -/
theorem tail_eq (c : Dev nD) :
    Pipeline.afterTail₀ cfgs (dats m) 0 (V0 m) [hostOps1, hostOps1_1, hostOps1_2, hostOps1_3, hostOps1_4] c main_v33
      = tail (shapeCast S16384 ((dats m 0 c).arrAt 3 cfg0.N) shapeCasts_S1x16384_S16384)
          (shapeCast S16384 ((dats m 0 c).arrAt 4 cfg0.N) shapeCasts_S1x16384_S16384)
          (m ((c : Thread nD τ).loc main_arg0)) (V m c main_v14) := by
  unfold Pipeline.afterTail₀
  simp only [hostOps1, hostOps1_1, hostOps1_2, hostOps1_3, hostOps1_4, List.flatten_cons, List.flatten_nil,
    List.append_nil, List.cons_append, List.nil_append]
  after_results_simp
  -- the numerators: window 3's array
  have h3 : Pipeline.withArrays (cfgs 0).spec c (V0 m c) (fun w => (dats m 0 c).arrAt w (cfgs 0).N)
      (Proc.devRef .tc main_v20_0) = (dats m 0 c).arrAt 3 cfg0.N :=
    Pipeline.withArrays_arr spec0 winFacts0.arr_inj c _ _ 3
  -- the denominators: window 4's array
  have h4 : Pipeline.withArrays (cfgs 0).spec c (V0 m c) (fun w => (dats m 0 c).arrAt w (cfgs 0).N)
      (Proc.devRef .tc main_v20_1) = (dats m 0 c).arrAt 4 cfg0.N :=
    Pipeline.withArrays_arr spec0 winFacts0.arr_inj c _ _ 4
  -- the queries: no array of the region, and written by no operation before it
  have h0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  -- the variances: no array of the region
  have h14 : Pipeline.withArrays (cfgs 0).spec c (V0 m c) (fun w => (dats m 0 c).arrAt w (cfgs 0).N)
      (Proc.devRef .tc main_v14) = V m c main_v14 :=
    Pipeline.withArrays_of_ne _ c (V0 m c) _ main_v14
      (by exact (by decide : ∀ w, Pipeline.arrRef spec0 w ≠ main_v14))
  rw [h3, h4, h0, h14]
  unfold tail
  simp only [StableHlo.TRef.toBuf, StableHlo.TRef.ofBuf, cast_eq]
  rfl

/-- A row `[1,16384]` flattened to `[16384]` and read at `b` is the row at `(0, b)`. -/
theorem reshape_row (A : FVec Ideal S1x16384 .f32) (b : Fin 16384) :
    shapeCast S16384 A shapeCasts_S1x16384_S16384 (ix1 b) = A (ix2 0 b) :=
  shapeCast_1a_a_apply A shapeCasts_S1x16384_S16384 b

end Cert.NW.Tl

end
-- ==== Proof.KRun.lean ====
/-
  The idealized kernel's run, read as values: its result array is the shared host tail (`tail`) of the two
  output arrays of the pallas_call, and those hold, for each query, the sum over ALL training points of the
  weights (the denominators) and of the weights times the positions (the numerators) — the eight tile sums
  the grid accumulates, added up.
-/
import proofs.«162017_j15556371546670_1_alg».proof.Proof.Acc
import proofs.«162017_j15556371546670_1_alg».proof.Proof.Final
import proofs.«162017_j15556371546670_1_alg».proof.Proof.HostTail
import proofs.«162017_j15556371546670_1_alg».proof.Proof.Blocks

noncomputable section

namespace Cert.NW.KRun

open Cert.KernelIdeal Cert.KernelIdeal.Gen Idealize.ShloMosaic Idealize.ShloMosaic.TcCoe Idealize.ShloMosaic.ValueIdx
open Idealize.SL.Sem Cert.NW

variable (m : (ℓ : Loc nD τ sig) → Buf (Elt Ideal) ℓ) (ρ : Dev nD → PrngReg)

/-- The numerators: for query `b` (column `b` of the row), the sum over the training points of weight times position. -/
def numArr (c : Dev nD) : FVec Ideal S1x16384 .f32 :=
  fun i => ∑ n : Fin 16384, Acc.wgt m c (i 1) n * m ((c : Thread nD τ).loc main_arg2) (ix2 n 0)

/-- The denominators: for query `b`, the sum over the training points of the weights. -/
def denArr (c : Dev nD) : FVec Ideal S1x16384 .f32 :=
  fun i => ∑ n : Fin 16384, Acc.wgt m c (i 1) n

/-- After the region the first output array holds the numerators: every block written back is the finished sum. -/
theorem arr_num (c : Dev nD) : (dats m 0 c).arrAt 3 cfg0.N = numArr m c :=
  Cert.NW.Fin.final_num m c (numArr m c) fun t h7 j => Acc.out_num m c t h7 j

/-- After the region the second output array holds the denominators. -/
theorem arr_den (c : Dev nD) : (dats m 0 c).arrAt 4 cfg0.N = denArr m c :=
  Cert.NW.Fin.final_den m c (denArr m c) fun t h7 j => Acc.out_den m c t h7 j

/-- The kernel's result: the host tail of the two sums, the queries and the variances. -/
def result (c : Dev nD) : Buf (Elt Ideal) ((c : Thread nD τ).loc main_v33) :=
  tail (shapeCast S16384 (numArr m c) shapeCasts_S1x16384_S16384) (shapeCast S16384 (denArr m c) shapeCasts_S1x16384_S16384)
    (m ((c : Thread nD τ).loc main_arg0)) (V m c main_v14)

/-- Every weakly fair execution of the idealized kernel terminates with the result array at `result` and the
    arguments as launched. -/
theorem run : θ_run defs (onTc (τ := τ) (main (F := Ideal))) ⟨m, fun _ => 0, ρ⟩ (fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v33 Tl.v33_rest).trans ((Tl.tail_eq m c).trans (by rw [arr_num, arr_den]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.NW.KRun

end
-- ==== Proof.RefValue.lean ====
/-
  The reference program read as mathematics: its variance stage is `sig2` of the time, its two column sums are the
  sums of the Gaussian weights `wR` (and of the weights times the training points) over all 16384 training points,
  and the operations after the sums are `tail`, word for word.

  Every stage of the reference is read at one index. The layout operations (a column `[16384,1]` flattened to
  `[16384]`, put on a row `[1,16384]` or a column, and spread over the `[16384,16384]` square) only move indices:
  the square's entry `(n, b)` reads the training point `(n, 0)`, the query `(b, 0)` and the time `(b)`.
-/
import proofs.«162017_j15556371546670_1_alg».proof.Proof.Gen.ReferenceIdeal.Read
import proofs.«162017_j15556371546670_1_alg».proof.Proof.Spec

noncomputable section

namespace Cert.NW.Ref

open Cert.ReferenceIdeal Cert.ReferenceIdeal.Read Idealize.ShloMosaic Idealize.ShloMosaic.ValueIdx Cert.NW

/-! ## Where the layout operations send an index -/

/-- Row `k` of column `b` of the square, as the first sum enumerates it. -/
private theorem e37 (b k : Fin 16384) : idx_main_v37 (ix1 b) k = ix2 k b :=
  funext fun a => Fin.ext (by match a with | ⟨0, _⟩ => rfl | ⟨1, _⟩ => rfl)
/-- The same entry, as the second sum enumerates it. -/
private theorem e36 (b k : Fin 16384) : idx_main_v36 (ix1 b) k = ix2 k b :=
  funext fun a => Fin.ext (by match a with | ⟨0, _⟩ => rfl | ⟨1, _⟩ => rfl)
/-- A column spread over the square is read at its row. -/
private theorem e24 (k b : Fin 16384) : idx_main_v24 (ix2 k b) = ix2 k (0 : Fin 1) :=
  funext fun a => Fin.ext (by match a with | ⟨0, _⟩ => rfl | ⟨1, _⟩ => rfl)
private theorem e34 (k b : Fin 16384) : idx_main_v34 (ix2 k b) = ix2 k (0 : Fin 1) :=
  funext fun a => Fin.ext (by match a with | ⟨0, _⟩ => rfl | ⟨1, _⟩ => rfl)
/-- A vector put on a column is read at the column's row. -/
private theorem e21 (k : Fin 16384) : idx_main_v21 (ix2 k (0 : Fin 1)) = ix1 k :=
  funext fun a => Fin.ext (by match a with | ⟨0, _⟩ => rfl)
/-- A flattened column is read at `(k, 0)`. -/
private theorem e20 (k : Fin 16384) : idx_main_v20 (ix1 k) = ix2 k (0 : Fin 1) :=
  funext fun a => Fin.ext (by match a with | ⟨0, _⟩ => exact Nat.div_one _ | ⟨1, _⟩ => rfl)
private theorem e22 (k : Fin 16384) : idx_main_v22 (ix1 k) = ix2 k (0 : Fin 1) :=
  funext fun a => Fin.ext (by match a with | ⟨0, _⟩ => exact Nat.div_one _ | ⟨1, _⟩ => rfl)
/-- A row spread over the square is read at its column. -/
private theorem e25 (k b : Fin 16384) : idx_main_v25 (ix2 k b) = ix2 (0 : Fin 1) b :=
  funext fun a => Fin.ext (by match a with | ⟨0, _⟩ => rfl | ⟨1, _⟩ => rfl)
private theorem e31 (k b : Fin 16384) : idx_main_v31 (ix2 k b) = ix2 (0 : Fin 1) b :=
  funext fun a => Fin.ext (by match a with | ⟨0, _⟩ => rfl | ⟨1, _⟩ => rfl)
/-- A vector put on a row is read at the row's column. -/
private theorem e23 (b : Fin 16384) : idx_main_v23 (ix2 (0 : Fin 1) b) = ix1 b :=
  funext fun a => Fin.ext (by match a with | ⟨0, _⟩ => rfl)
private theorem e30 (b : Fin 16384) : idx_main_v30 (ix2 (0 : Fin 1) b) = ix1 b :=
  funext fun a => Fin.ext (by match a with | ⟨0, _⟩ => rfl)

/-! ## The variance -/

/-- The reference's variance of query `b` is `sig2` of its time. -/
theorem ref_s2 (x1 : (⟨S16384, .f32⟩ : BufTy).Contents (Elt Ideal)) (b : Fin 16384) :
    val_main_v14 (F := Ideal) x1 (ix1 b) = sig2 (x1 (ix1 b)) := by
  simp only [val_main_v14_apply, val_main_v13_apply, val_main_v12_apply, val_main_v11_apply, val_main_v10_apply,
    val_main_v9_apply, val_main_cst_2_apply, val_main_v8_apply, val_main_v7_apply, val_main_cst_1_apply,
    val_main_v6_apply, val_main_v5_apply, val_main_v4_apply, val_main_v3_apply, val_main_v2_apply, val_main_v1_apply,
    val_main_cst_0_apply, val_main_v0_apply, val_main_cst_apply,
    Ideal.mulf_def, Ideal.subf_def, Ideal.hostUnary_exp_def, Ideal.hostUnary_log_def, Ideal.hostUnary_sqrt_def,
    Ideal.hostDivf_def, Ideal.ofBits_def]
  rfl

/-! ## One weight -/

/-- Entry `(n, b)` of the reference's square of weights is the weight of training point `n` for query `b`. -/
private theorem ref_w (x0 : (⟨S16384x1, .f32⟩ : BufTy).Contents (Elt Ideal)) (x1 : (⟨S16384, .f32⟩ : BufTy).Contents (Elt Ideal))
    (x2 : (⟨S16384x1, .f32⟩ : BufTy).Contents (Elt Ideal)) (n b : Fin 16384) :
    val_main_v33 (F := Ideal) x0 x1 x2 (ix2 n b) = wR (x2 (ix2 n 0)) (x0 (ix2 b 0)) (sig2 (x1 (ix1 b))) := by
  simp only [val_main_v33_apply, val_main_v32_apply, val_main_v31_apply, val_main_v30_apply, val_main_v29_apply,
    val_main_v28_apply, val_main_cst_3_apply, val_main_v27_apply, val_main_v26_apply, val_main_v25_apply,
    val_main_v24_apply, val_main_v23_apply, val_main_v22_apply, val_main_v21_apply, val_main_v20_apply,
    e24, e21, e20, e25, e23, e22, e31, e30, ref_s2,
    Ideal.mulf_def, Ideal.subf_def, Ideal.hostUnary_exp_def, Ideal.hostDivf_def, Ideal.ofBits_def]
  rfl

/-! ## The two sums -/

/-- The reference's denominator of query `b`: the sum of the weights of all training points. -/
theorem ref_den (x0 : (⟨S16384x1, .f32⟩ : BufTy).Contents (Elt Ideal)) (x1 : (⟨S16384, .f32⟩ : BufTy).Contents (Elt Ideal))
    (x2 : (⟨S16384x1, .f32⟩ : BufTy).Contents (Elt Ideal)) (b : Fin 16384) :
    val_main_v37 (F := Ideal) x0 x1 x2 (ix1 b)
      = ∑ n : Fin 16384, wR (x2 (ix2 n 0)) (x0 (ix2 b 0)) (sig2 (x1 (ix1 b))) := by
  rw [val_main_v37_apply, val_main_cst_5_apply, Ideal.ofBits_def, Ideal.ofBits_zero_f32, zero_add]
  exact Finset.sum_congr rfl fun k _ => by rw [e37, ref_w]

/-- The reference's numerator of query `b`: the sum of the weights times the training points. -/
theorem ref_num (x0 : (⟨S16384x1, .f32⟩ : BufTy).Contents (Elt Ideal)) (x1 : (⟨S16384, .f32⟩ : BufTy).Contents (Elt Ideal))
    (x2 : (⟨S16384x1, .f32⟩ : BufTy).Contents (Elt Ideal)) (b : Fin 16384) :
    val_main_v36 (F := Ideal) x0 x1 x2 (ix1 b)
      = ∑ n : Fin 16384, wR (x2 (ix2 n 0)) (x0 (ix2 b 0)) (sig2 (x1 (ix1 b))) * x2 (ix2 n 0) := by
  rw [val_main_v36_apply, val_main_cst_4_apply, Ideal.ofBits_def, Ideal.ofBits_zero_f32, zero_add]
  exact Finset.sum_congr rfl fun k _ => by
    rw [e36, val_main_v35_apply, val_main_v34_apply, e34, ref_w, Ideal.mulf_def]

/-! ## After the sums -/

/-- The reference's operations after the two sums are `tail`. -/
theorem ref_tail (x0 : (⟨S16384x1, .f32⟩ : BufTy).Contents (Elt Ideal)) (x1 : (⟨S16384, .f32⟩ : BufTy).Contents (Elt Ideal))
    (x2 : (⟨S16384x1, .f32⟩ : BufTy).Contents (Elt Ideal)) :
    val_main_v48 (F := Ideal) x0 x1 x2
      = tail (val_main_v36 (F := Ideal) x0 x1 x2) (val_main_v37 (F := Ideal) x0 x1 x2) x0 (val_main_v14 (F := Ideal) x1) := by
  unfold val_main_v48 val_main_v47 val_main_v46 val_main_v45 val_main_v44 val_main_v43 val_main_v42 val_main_v41
    val_main_v40 val_main_v39 val_main_v38 val_main_call1_v1 val_main_call1_v0 val_main_call0_v1 val_main_call0_v0
    val_main_cst_9 val_main_cst_8 val_main_cst_7 val_main_cst_6 tail
  rfl

end Cert.NW.Ref

end
-- ==== Proof.Sigma.lean ====
/-
  The variance is never zero at a positive real time.

  The three words the variance is spelled with denote 25, 2 and 1. Since log 25 > 0, for a real r > 0 the
  exponent 2·r·log 25 is positive, so exp (2·r·log 25) > 1 and the numerator exp (2·r·log 25) - 1 is a positive
  real; the divisor 2·log 25 is a positive real, so the quotient under the square root is a positive real y.
  Then √y > 0 and the variance is the real √y·√y, which is not zero.
-/
import proofs.«162017_j15556371546670_1_alg».proof.Proof.Spec
import Mathlib.Analysis.SpecialFunctions.Log.Basic
import Mathlib.Analysis.SpecialFunctions.Sqrt

noncomputable section

namespace Cert.NW

open Idealize.ShloMosaic

/-- The word `0x41C80000` denotes 25. -/
private theorem ofBits_25 : Ideal.ofBits .f32 0x41C80000#32 = ((25 : ℝ) : EReal) := by
  simp [Ideal.ofBits, Ideal.ieee, -EReal.coe_mul]; norm_num

/-- The word `0x40000000` denotes 2. -/
private theorem ofBits_2 : Ideal.ofBits .f32 0x40000000#32 = ((2 : ℝ) : EReal) := by
  simp [Ideal.ofBits, Ideal.ieee, -EReal.coe_mul]; norm_num

/-- The word `0x3F800000` denotes 1. -/
private theorem ofBits_1 : Ideal.ofBits .f32 0x3F800000#32 = ((1 : ℝ) : EReal) := by
  simp [Ideal.ofBits, Ideal.ieee, -EReal.coe_mul]; norm_num

private theorem log25_pos : 0 < Real.log 25 := Real.log_pos (by norm_num)

/-- `log 25` as both programs compute it is the real `Real.log 25`. -/
private theorem logS_eq : logS = ((Real.log 25 : ℝ) : EReal) := by
  show Ideal.log (Ideal.ofBits .f32 0x41C80000#32) = _
  rw [ofBits_25, Ideal.log_coe, if_neg (by norm_num)]

/-- At a real time the quotient under the square root is the real `(exp (2·r·log 25) - 1)·(1 / (2·log 25))`. -/
private theorem varArg_coe (r : ℝ) :
    varArg ((r : ℝ) : EReal)
      = (((Real.exp (2 * r * Real.log 25) - 1) * (1 / (2 * Real.log 25)) : ℝ) : EReal) := by
  have hd : (2 * Real.log 25 : ℝ) ≠ 0 := (mul_pos two_pos log25_pos).ne'
  unfold varArg
  rw [logS_eq, ofBits_2, ofBits_1, ← EReal.coe_mul, ← EReal.coe_mul, Ideal.exp_coe, ← EReal.coe_sub,
    ← EReal.coe_mul, Ideal.div_coe hd, ← EReal.coe_mul]

/-- That quotient is positive at a positive time. -/
private theorem varArg_real_pos {r : ℝ} (hr : 0 < r) :
    0 < (Real.exp (2 * r * Real.log 25) - 1) * (1 / (2 * Real.log 25)) := by
  have h1 : 0 < 2 * r * Real.log 25 := mul_pos (mul_pos two_pos hr) log25_pos
  have h2 : 2 * r * Real.log 25 + 1 < Real.exp (2 * r * Real.log 25) := Real.add_one_lt_exp h1.ne'
  have h3 : 0 < 1 / (2 * Real.log 25) := one_div_pos.mpr (mul_pos two_pos log25_pos)
  exact mul_pos (by linarith) h3

/-- The variance at a positive real time is not zero. -/
theorem sig2_ne_zero {r : ℝ} (hr : 0 < r) : sig2 ((r : ℝ) : EReal) ≠ 0 := by
  have hy := varArg_real_pos hr
  have hs : 0 < Real.sqrt ((Real.exp (2 * r * Real.log 25) - 1) * (1 / (2 * Real.log 25))) :=
    Real.sqrt_pos.mpr hy
  unfold sig2
  rw [varArg_coe, Ideal.sqrt_coe, if_neg (not_lt.mpr hy.le), ← EReal.coe_mul]
  exact_mod_cast (mul_pos hs hs).ne'

end Cert.NW

end
-- ==== Proof.PreFacts.lean ====
/-
  What the precondition says of the times: each is a positive real.

  The precondition is the conjunction of four statements over all entries: |x| < +∞, |t| < +∞, |train| < +∞ and
  t > 0. The second gives max (t b) (-(t b)) < ⊤ at every index b, so t b is not ⊤; the fourth gives 0 < t b, so
  t b is not ⊥ either. An extended real that is neither infinity is a real r, and 0 < r.
-/
import proofs.«162017_j15556371546670_1_alg».proof.Pre_finite_inputs
import proofs.«162017_j15556371546670_1_alg».proof.Proof.Gen.Pre_finite_inputs
import Idealize.ShloMosaic.Lib.ReduceAll
import Idealize.ShloMosaic.Lib.ValueIdx
import Idealize.ShloMosaic.PureOps.Ideal.Laws

noncomputable section

namespace Cert.NW.Pre

open Idealize.ShloMosaic Idealize.ShloMosaic.ValueIdx

/-- The rank-0 shape has one index. -/
private instance subsingleton_scalar_idx : Subsingleton Cert.Pre_finite_inputs.S_.Idx :=
  ⟨fun a b => funext fun d => d.elim0⟩

/-- The word `0x7F800000` denotes +∞. -/
private theorem ofBits_inf : Ideal.ofBits .f32 0x7F800000#32 = (⊤ : EReal) := by
  simp [Ideal.ofBits, Ideal.ieee]

/-- The word `0x00000000` denotes 0. -/
private theorem ofBits_zero : Ideal.ofBits .f32 0x00000000#32 = (0 : EReal) := by
  simp [Ideal.ofBits, Ideal.ieee]

/-- A scalar broadcast to any shape reads, at every index, as the scalar's one entry. -/
private theorem bcast_scalar_apply {T : Shape} {α : Type}
    (hb : Cert.Pre_finite_inputs.S_.BroadcastsInDim T (![] : Fin 0 → Fin T.rank))
    (c : Cert.Pre_finite_inputs.S_.Idx → α) (j : T.Idx) : broadcastInDim T ![] hb c j = c ix0 := by
  unfold broadcastInDim
  exact congrArg c (Subsingleton.elim _ _)

/-- A strict comparison `a < b` that came out 1 holds. -/
private theorem lt_of_cmp_olt {a b : EReal} (h : Ideal.cmp .olt a b = 1#1) : a < b := by
  by_contra hn
  simp [Ideal.cmp, hn] at h

/-- A strict comparison `a > b` that came out 1 holds. -/
private theorem lt_of_cmp_ogt {a b : EReal} (h : Ideal.cmp .ogt a b = 1#1) : b < a := by
  by_contra hn
  simp [Ideal.cmp, hn] at h

/-- Under the precondition every time is a positive real. -/
theorem t_pos_of_pre (x : FVec Ideal Cert.Pre_finite_inputs.S16384x1 .f32) (t : FVec Ideal Cert.Pre_finite_inputs.S16384 .f32) (tr : FVec Ideal Cert.Pre_finite_inputs.S16384x1 .f32)
    (h : Cert.Pre_finite_inputs.fn (F := Ideal) x t tr = fun _ => 1#1) :
    ∀ b : Cert.Pre_finite_inputs.S16384.Idx, ∃ r : ℝ, t b = ((r : ℝ) : EReal) ∧ 0 < r := by
  intro b
  have h0 := congrFun h ValueIdx.ix0
  dsimp only [Cert.Pre_finite_inputs.fn, Cert.Pre_finite_inputs.fn_part1] at h0
  -- the four conjuncts
  obtain ⟨h123, h4⟩ := IntOp.andi_eq_one.1 h0
  obtain ⟨h12, _⟩ := IntOp.andi_eq_one.1 h123
  obtain ⟨_, h2⟩ := IntOp.andi_eq_one.1 h12
  -- each at the index b
  have e2 := Host.reduce_andi_all _ _ _ _ _ h2 b
  have e4 := Host.reduce_andi_all _ _ _ _ _ h4 b
  rw [cmpf_apply, bcast_scalar_apply, constant_apply, Ideal.cmpf_def, ofBits_inf] at e2
  rw [cmpf_apply, bcast_scalar_apply, constant_apply, Ideal.cmpf_def, ofBits_zero] at e4
  have hfin : max (t b) (-(t b)) < ⊤ := lt_of_cmp_olt e2
  have hpos : (0 : EReal) < t b := lt_of_cmp_ogt e4
  have htop : t b < ⊤ := lt_of_le_of_lt (le_max_left _ _) hfin
  induction hb : t b using EReal.rec with
  | bot => rw [hb] at hpos; exact absurd hpos (by simp)
  | top => rw [hb] at htop; exact absurd htop (lt_irrefl _)
  | coe r => rw [hb] at hpos; exact ⟨r, rfl, by exact_mod_cast hpos⟩

end Cert.NW.Pre

end
-- ==== Proof.Bridge.lean ====
/-
  The two results are one function of the arguments, wherever every time is positive.

  Both programs end with the same host operations (`tail`) of a numerator, a denominator, the queries and the
  variances. The variances are the same stages of the times. For a query of positive time the variance is a
  positive real, so the kernel's `a · (1 / σ²)` is the reference's `a / σ²` under the exponential, weight by
  weight; and the kernel's sums over the training points, which the grid takes tile by tile, are the
  reference's sums over all of them.
-/
import proofs.«162017_j15556371546670_1_alg».proof.Proof.KRun
import proofs.«162017_j15556371546670_1_alg».proof.Proof.RefValue
import proofs.«162017_j15556371546670_1_alg».proof.Proof.Sigma
import proofs.«162017_j15556371546670_1_alg».proof.Proof.PreFacts

noncomputable section

namespace Cert.NW.Bridge

open Idealize.ShloMosaic Idealize.ShloMosaic.TcCoe Idealize.ShloMosaic.ValueIdx Idealize.SL.Sem Cert.NW

/-- Under the precondition every query's variance is nonzero: its time is a positive real. -/
theorem var_ne_zero (x0 : FVec Ideal Cert.Pre_finite_inputs.S16384x1 .f32) (x1 : FVec Ideal Cert.Pre_finite_inputs.S16384 .f32)
    (x2 : FVec Ideal Cert.Pre_finite_inputs.S16384x1 .f32)
    (hpre : Cert.Pre_finite_inputs.fn (F := Ideal) x0 x1 x2 = fun _ => 1#1) (b : Fin 16384) :
    sig2 (x1 (ix1 b)) ≠ 0 := by
  obtain ⟨r, hr, hpos⟩ := Pre.t_pos_of_pre x0 x1 x2 hpre (ix1 b)
  rw [hr]
  exact sig2_ne_zero hpos

/-- The reference's result term, at arguments that agree with the kernel's and satisfy the precondition, is the
    kernel's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v48 m' c = KRun.result m c := by
  rw [Cert.ReferenceIdeal.Read.val_main_v48_eq m' c, Ref.ref_tail, h0, h1, h2]
  unfold KRun.result
  have hs := var_ne_zero _ _ _ hpre
  have e1 : Cert.ReferenceIdeal.Read.val_main_v36 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = shapeCast Cert.KernelIdeal.S16384 (KRun.numArr m c) Cert.KernelIdeal.Facts₀.shapeCasts_S1x16384_S16384 := by
    funext i
    obtain ⟨b, rfl⟩ : ∃ b : Fin 16384, i = ix1 b := ⟨i 0, eq_ix1 i⟩
    rw [Ref.ref_num, Tl.reshape_row]
    exact Finset.sum_congr rfl fun n _ => by
      show _ = Acc.wgt m c b n * _
      unfold Acc.wgt
      rw [wK_eq_wR _ _ _ (hs b)]
  have e2 : Cert.ReferenceIdeal.Read.val_main_v37 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = shapeCast Cert.KernelIdeal.S16384 (KRun.denArr m c) Cert.KernelIdeal.Facts₀.shapeCasts_S1x16384_S16384 := by
    funext i
    obtain ⟨b, rfl⟩ : ∃ b : Fin 16384, i = ix1 b := ⟨i 0, eq_ix1 i⟩
    rw [Ref.ref_den, Tl.reshape_row]
    exact Finset.sum_congr rfl fun n _ => by
      show _ = Acc.wgt m c b n
      unfold Acc.wgt
      rw [wK_eq_wR _ _ _ (hs b)]
  have e3 : Cert.ReferenceIdeal.Read.val_main_v14 (F := Ideal)
        (m ((c.tc : Thread Cert.KernelIdeal.nD Cert.KernelIdeal.τ).loc Cert.KernelIdeal.main_arg1))
      = Cert.KernelIdeal.Gen.V m c Cert.KernelIdeal.main_v14 := by
    funext i
    obtain ⟨b, rfl⟩ : ∃ b : Fin 16384, i = ix1 b := ⟨i 0, eq_ix1 i⟩
    rw [Ref.ref_s2]
    exact (Blk.v14_eq m c b).symm
  rw [e1, e2, e3]

end Cert.NW.Bridge

end
-- ==== Proof.lean ====
/-
  A Nadaraya–Watson average with Gaussian weights: for each of 16384 queries `x b` at time `t b`, the weights
  `w (n, b) = exp (-(tr n - x b)² / (2 σ²(t b)))` of the 16384 training points `tr n`, and the result
  `(∑ₙ w·tr / ∑ₙ w - x b) / σ²(t b)`, a zero denominator giving `0` for the quotient.

  The kernel forms `-(1/2)·d²·(1 / σ²)` where the reference forms `-(1/2)·d² / σ²`. At a zero variance the
  two differ over the extended reals (`0 · (1/0) = 0` against `0 / 0`), and the variance is zero exactly at
  time zero; the precondition therefore asks every time to be positive, the domain on which the reference's
  own square root and its divisions by `σ²` are defined. There the variance is a positive real and the two
  exponents are one extended real. The kernel sums over the training points tile by tile along a grid axis,
  carrying the partial sums between grid points, and the reference sums all at once: the same sum, addition
  on the extended reals being associative and commutative. The host operations before and after the sums are
  the same in both programs.

  The three frames: the two kernels' are the generated frame certificates, the reference's is its generated
  run with the result dropped. The idealization rewrote nothing.
-/
import proofs.«162017_j15556371546670_1_alg».proof.Defs
import proofs.«162017_j15556371546670_1_alg».proof.Proof.Gen.Kernel
import proofs.«162017_j15556371546670_1_alg».proof.Proof.Gen.Kernel.Skeleton
import proofs.«162017_j15556371546670_1_alg».proof.Proof.Gen.Kernel.Launch
import proofs.«162017_j15556371546670_1_alg».proof.Proof.Gen.Kernel.Points
import proofs.«162017_j15556371546670_1_alg».proof.Proof.Gen.Kernel.Frame
import proofs.«162017_j15556371546670_1_alg».proof.Proof.Gen.KernelIdeal
import proofs.«162017_j15556371546670_1_alg».proof.Proof.Gen.KernelIdeal.Skeleton
import proofs.«162017_j15556371546670_1_alg».proof.Proof.Gen.KernelIdeal.Launch
import proofs.«162017_j15556371546670_1_alg».proof.Proof.Gen.KernelIdeal.Points
import proofs.«162017_j15556371546670_1_alg».proof.Proof.Gen.KernelIdeal.Frame
import proofs.«162017_j15556371546670_1_alg».proof.Proof.Gen.ReferenceIdeal
import proofs.«162017_j15556371546670_1_alg».proof.Proof.Gen.ReferenceIdeal.Run
import proofs.«162017_j15556371546670_1_alg».proof.Proof.Gen.ReferenceIdeal.Read
import proofs.«162017_j15556371546670_1_alg».proof.Proof.Gen.Pre_finite_inputs
import proofs.«162017_j15556371546670_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and have positive times, both programs end at the kernel's result. -/
theorem algebraic : Cert.algebraic_KernelIdeal_ReferenceIdeal := by
  intro m ρ m' ρ' hpre hagree
  refine ⟨fun c => Cert.NW.KRun.result m c, Cert.NW.KRun.run m ρ, ?_⟩
  exact (θ_run Cert.ReferenceIdeal.defs _ _).mono
    (fun _ h c => ⟨(h c).1.trans (Cert.NW.Bridge.result_eq m m' c (hpre c) (hagree c).1 (hagree c).2.1 (hagree c).2.2), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
